-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x128 : Shape := ⟨2, ![40000, 128]⟩
abbrev S2x640000 : Shape := ⟨2, ![2, 640000]⟩
abbrev S640000x128 : Shape := ⟨2, ![640000, 128]⟩
abbrev S256x128 : Shape := ⟨2, ![256, 128]⟩
abbrev S128 : Shape := ⟨1, ![128]⟩
abbrev S128x128 : Shape := ⟨2, ![128, 128]⟩
abbrev S_ : Shape := ⟨0, ![]⟩

class Facts : Prop where
  bcast_S_S40000x128 : S_.BroadcastsInDim S40000x128 (![] : Fin 0 → Fin S40000x128.rank)
  reducesTo_S40000x128_S_d0_1 : S40000x128.ReducesTo [0, 1] S_
  h_S_ : 0 < S_.numel
  bcast_S_S640000x128 : S_.BroadcastsInDim S640000x128 (![] : Fin 0 → Fin S640000x128.rank)
  reducesTo_S640000x128_S_d0_1 : S640000x128.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part2 {F : FTy → Type} [FloatOps F] (main_arg8 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg5 : FVec F S256x128 .f32) (main_arg6 : FVec F S128 .f32) (main_arg7 : FVec F S128x128 .f32) (main_arg8 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S256x128 .f32 := Host.absf main_arg5
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_v33

def fn {F : FTy → Type} [FloatOps F] (main_arg0 : FVec F S40000x128 .f32) (main_arg1 : IVec S2x640000 32) (main_arg2 : FVec F S640000x128 .f32) (main_arg3 : FVec F S256x128 .f32) (main_arg4 : FVec F S128 .f32) (main_arg5 : FVec F S256x128 .f32) (main_arg6 : FVec F S128 .f32) (main_arg7 : FVec F S128x128 .f32) (main_arg8 : FVec F S128 .f32) : IVec S_ 1 :=
  let main_v0 : FVec F S40000x128 .f32 := Host.absf main_arg0
  let main_cst : FVec F S_ .f32 := constant S_ .f32 0x7F800000#32
  let main_v1 : FVec F S40000x128 .f32 := broadcastInDim S40000x128 ![] bcast_S_S40000x128 main_cst
  let main_v2 : IVec S40000x128 1 := cmpf .olt main_v0 main_v1
  let main_c : IVec S_ 1 := constantI S_ 1 1#1
  let main_v3 : IVec S_ 1 := (fun x v => Host.reduce IntOp.andi x v reducesTo_S40000x128_S_d0_1 h_S_) main_v2 main_c
  let main_v4 : FVec F S640000x128 .f32 := Host.absf main_arg2
  let main_cst_0 : FVec F S_ .f32 := constant S_ .f32 0x7F800000#32
  let main_v5 : FVec F S640000x128 .f32 := broadcastInDim S640000x128 ![] bcast_S_S640000x128 main_cst_0
  let main_v6 : IVec S640000x128 1 := cmpf .olt main_v4 main_v5
  let main_c_1 : IVec S_ 1 := constantI S_ 1 1#1
  let main_v7 : IVec S_ 1 := (fun x v => Host.reduce IntOp.andi x v reducesTo_S640000x128_S_d0_1 h_S_) main_v6 main_c_1
  let main_v8 : IVec S_ 1 := andi main_v3 main_v7
  let main_v9 : FVec F S256x128 .f32 := Host.absf main_arg3
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_v13 main_v16
-- ==== Kernel.lean ====
abbrev S40000x128 : Shape := ⟨2, ![40000, 128]⟩
abbrev S2x640000 : Shape := ⟨2, ![2, 640000]⟩
abbrev S640000x128 : Shape := ⟨2, ![640000, 128]⟩
abbrev S256x128 : Shape := ⟨2, ![256, 128]⟩
abbrev S128 : Shape := ⟨1, ![128]⟩
abbrev S128x128 : Shape := ⟨2, ![128, 128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S1x128 : Shape := ⟨2, ![1, 128]⟩
abbrev S6400x128 : Shape := ⟨2, ![6400, 128]⟩
abbrev S5000x128 : Shape := ⟨2, ![5000, 128]⟩

abbrev nBuf : Space → Nat
  | .hbm => 35
  | .vmem => 20
  | .smem => 0
  | _ => 0

abbrev bufTy : (tb : Table) → Fin (tcTables nBuf tb) → BufTy
  | .hbm, ⟨0, _⟩ => ⟨S40000x128, .f32⟩
  | .hbm, ⟨1, _⟩ => ⟨S2x640000, .i32⟩
  | .hbm, ⟨2, _⟩ => ⟨S640000x128, .f32⟩
  | .hbm, ⟨3, _⟩ => ⟨S256x128, .f32⟩
  | .hbm, ⟨4, _⟩ => ⟨S128, .f32⟩
  | .hbm, ⟨5, _⟩ => ⟨S256x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S1x640000, .i32⟩
  | .hbm, ⟨10, _⟩ => ⟨S640000, .i32⟩
  | .hbm, ⟨11, _⟩ => ⟨S1x640000, .i32⟩
  | .hbm, ⟨12, _⟩ => ⟨S640000, .i32⟩
  | .hbm, ⟨13, _⟩ => ⟨S_, .i32⟩
  | .hbm, ⟨14, _⟩ => ⟨S640000, .i32⟩
  | .hbm, ⟨15, _⟩ => ⟨S640000, .i1⟩
  | .hbm, ⟨16, _⟩ => ⟨S_, .i32⟩
  | .hbm, ⟨17, _⟩ => ⟨S640000, .i32⟩
  | .hbm, ⟨18, _⟩ => ⟨S640000, .i32⟩
  | .hbm, ⟨19, _⟩ => ⟨S640000, .i32⟩
  | .hbm, ⟨20, _⟩ => ⟨S640000x1, .i32⟩
  | .hbm, ⟨21, _⟩ => ⟨S640000x128, .f32⟩
  | .hbm, ⟨22, _⟩ => ⟨S128x128, .f32⟩
  | .hbm, ⟨23, _⟩ => ⟨S128x128, .f32⟩
  | .hbm, ⟨24, _⟩ => ⟨S1x128, .f32⟩
  | .hbm, ⟨25, _⟩ => ⟨S640000x128, .f32⟩
  | .hbm, ⟨26, _⟩ => ⟨S_, .f32⟩
  | .hbm, ⟨27, _⟩ => ⟨S40000x128, .f32⟩
  | .hbm, ⟨28, _⟩ => ⟨S640000x1, .i32⟩
  | .hbm, ⟨29, _⟩ => ⟨S40000x128, .f32⟩
  | .hbm, ⟨30, _⟩ => ⟨S128x128, .f32⟩
  | .hbm, ⟨31, _⟩ => ⟨S128x128, .f32⟩
  | .hbm, ⟨32, _⟩ => ⟨S1x128, .f32⟩
  | .hbm, ⟨33, _⟩ => ⟨S1x128, .f32⟩
  | .hbm, ⟨34, _⟩ => ⟨S40000x128, .f32⟩
  | .local _ .vmem, ⟨0, _⟩ => ⟨S6400x128, .f32⟩
  | .local _ .vmem, ⟨1, _⟩ => ⟨S6400x128, .f32⟩
  | .local _ .vmem, ⟨2, _⟩ => ⟨S6400x128, .f32⟩
  | .local _ .vmem, ⟨3, _⟩ => ⟨S6400x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S6400x128, .f32⟩
  | .local _ .vmem, ⟨8, _⟩ => ⟨S6400x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S128x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | _, _ => ⟨S40000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6400x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6400x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S6400x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  slices_S256x128_S128x128_0_0 : S256x128.Slices ![0, 0] S128x128
  slices_S256x128_S128x128_128_0 : S256x128.Slices ![128, 0] S128x128
  shapeCasts_S128_S1x128 : S128.ShapeCasts S1x128
  inb_S6400x128_S6400x128_0_0 : ∀ a, (![0, 0] : Fin 2 → Nat) a + S6400x128.size a ≤ S6400x128.size a
  h_S6400x128 : 0 < S6400x128.numel
  shapeCasts_S6400x128_S6400x128 : S6400x128.ShapeCasts S6400x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S6400x128 : S1x128.Broadcasts S6400x128
  bcast_S_S40000x128 : S_.BroadcastsInDim S40000x128 (![] : Fin 0 → Fin S40000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S1x128_S5000x128 : S1x128.Broadcasts S5000x128
  gather_S40000x128_S640000x1_S640000x128_1_0_n_n_0_1_1128_wf : GatherDims.WF S40000x128 S640000x1 S640000x128 [1] [0] [] [0] [] 1 ![1, 128]
  dot_S6400x128_S128x128_S6400x128_1_0_0_1_n_n_wf : DotDims.WF S6400x128 S128x128 S6400x128 [1] [0] [0] [1] [] []
  scatter_S40000x128_S640000x1_S640000x128_1_0_0_1_wf : ScatterDims.WF S40000x128 S640000x1 S640000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x128.size a ≤ S640000x128.size a
  hwx0_0 : ∀ i : grid0.Coords, EltTy.bits .f32 = 32 ∨ (Rect.block (s := S640000x128) S6400x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6400x128.size a ≤ S640000x128.size a
  hwx0_1 : ∀ i : grid0.Coords, EltTy.bits .f32 = 32 ∨ (Rect.block (s := S640000x128) S6400x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S6400x128.size a ≤ S640000x128.size a
  hwx0_5 : ∀ i : grid0.Coords, EltTy.bits .f32 = 32 ∨ (Rect.block (s := S640000x128) S6400x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S40000x128.size a
  hwx1_0 : ∀ i : grid1.Coords, EltTy.bits .f32 = 32 ∨ (Rect.block (s := S40000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S40000x128.size a
  hwx1_1 : ∀ i : grid1.Coords, EltTy.bits .f32 = 32 ∨ (Rect.block (s := S40000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S40000x128.size a
  hwx1_7 : ∀ i : grid1.Coords, EltTy.bits .f32 = 32 ∨ (Rect.block (s := S40000x128) S5000x128.size (cc1_transform_7 i) (hinb1_7 i)).WholeWords (EltTy.packing .f32)

variable [Facts₀]

def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def dot_S6400x128_S128x128_S6400x128_1_0_0_1_n_n : DotDims S6400x128 S128x128 S6400x128 where
  lhsContracting := [1]
  rhsContracting := [0]
  lhsNonContracting := [0]
  rhsNonContracting := [1]
  lhsBatch := []
  rhsBatch := []
  wf := dot_S6400x128_S128x128_S6400x128_1_0_0_1_n_n_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v10) S6400x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S6400x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14) S6400x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v18) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v19) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v20) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v21) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v22) S5000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S40000x128 : Shape := ⟨2, ![40000, 128]⟩
abbrev S2x640000 : Shape := ⟨2, ![2, 640000]⟩
abbrev S640000x128 : Shape := ⟨2, ![640000, 128]⟩
abbrev S256x128 : Shape := ⟨2, ![256, 128]⟩
abbrev S128 : Shape := ⟨1, ![128]⟩
abbrev S128x128 : Shape := ⟨2, ![128, 128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x256 : Shape := ⟨2, ![640000, 256]⟩
abbrev S1x128 : Shape := ⟨2, ![1, 128]⟩
abbrev S40000x256 : Shape := ⟨2, ![40000, 256]⟩

abbrev nBuf : Space → Nat
  | .hbm => 59
  | .vmem => 0
  | .smem => 0
  | _ => 0

abbrev bufTy : (tb : Table) → Fin (tcTables nBuf tb) → BufTy
  | .hbm, ⟨0, _⟩ => ⟨S40000x128, .f32⟩
  | .hbm, ⟨1, _⟩ => ⟨S2x640000, .i32⟩
  | .hbm, ⟨2, _⟩ => ⟨S640000x128, .f32⟩
  | .hbm, ⟨3, _⟩ => ⟨S256x128, .f32⟩
  | .hbm, ⟨4, _⟩ => ⟨S128, .f32⟩
  | .hbm, ⟨5, _⟩ => ⟨S256x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S1x640000, .i32⟩
  | .hbm, ⟨10, _⟩ => ⟨S640000, .i32⟩
  | .hbm, ⟨11, _⟩ => ⟨S1x640000, .i32⟩
  | .hbm, ⟨12, _⟩ => ⟨S640000, .i32⟩
  | .hbm, ⟨13, _⟩ => ⟨S_, .i32⟩
  | .hbm, ⟨14, _⟩ => ⟨S640000, .i32⟩
  | .hbm, ⟨15, _⟩ => ⟨S640000, .i1⟩
  | .hbm, ⟨16, _⟩ => ⟨S_, .i32⟩
  | .hbm, ⟨17, _⟩ => ⟨S640000, .i32⟩
  | .hbm, ⟨18, _⟩ => ⟨S640000, .i32⟩
  | .hbm, ⟨19, _⟩ => ⟨S640000, .i32⟩
  | .hbm, ⟨20, _⟩ => ⟨S640000x1, .i32⟩
  | .hbm, ⟨21, _⟩ => ⟨S640000x128, .f32⟩
  | .hbm, ⟨22, _⟩ => ⟨S640000x256, .f32⟩
  | .hbm, ⟨23, _⟩ => ⟨S640000x128, .f32⟩
  | .hbm, ⟨24, _⟩ => ⟨S1x128, .f32⟩
  | .hbm, ⟨25, _⟩ => ⟨S640000x128, .f32⟩
  | .hbm, ⟨26, _⟩ => ⟨S640000x128, .f32⟩
  | .hbm, ⟨27, _⟩ => ⟨S640000x128, .f32⟩
  | .hbm, ⟨28, _⟩ => ⟨S640000x128, .f32⟩
  | .hbm, ⟨29, _⟩ => ⟨S_, .f32⟩
  | .hbm, ⟨30, _⟩ => ⟨S640000x128, .f32⟩
  | .hbm, ⟨31, _⟩ => ⟨S640000x128, .f32⟩
  | .hbm, ⟨32, _⟩ => ⟨S_, .f32⟩
  | .hbm, ⟨33, _⟩ => ⟨S640000x128, .f32⟩
  | .hbm, ⟨34, _⟩ => ⟨S640000x128, .f32⟩
  | .hbm, ⟨35, _⟩ => ⟨S640000x128, .f32⟩
  | .hbm, ⟨36, _⟩ => ⟨S_, .f32⟩
  | .hbm, ⟨37, _⟩ => ⟨S40000x128, .f32⟩
  | .hbm, ⟨38, _⟩ => ⟨S640000x1, .i32⟩
  | .hbm, ⟨39, _⟩ => ⟨S40000x128, .f32⟩
  | .hbm, ⟨40, _⟩ => ⟨S40000x256, .f32⟩
  | .hbm, ⟨41, _⟩ => ⟨S40000x128, .f32⟩
  | .hbm, ⟨42, _⟩ => ⟨S1x128, .f32⟩
  | .hbm, ⟨43, _⟩ => ⟨S40000x128, .f32⟩
  | .hbm, ⟨44, _⟩ => ⟨S40000x128, .f32⟩
  | .hbm, ⟨45, _⟩ => ⟨S40000x128, .f32⟩
  | .hbm, ⟨46, _⟩ => ⟨S40000x128, .f32⟩
  | .hbm, ⟨47, _⟩ => ⟨S_, .f32⟩
  | .hbm, ⟨48, _⟩ => ⟨S40000x128, .f32⟩
  | .hbm, ⟨49, _⟩ => ⟨S40000x128, .f32⟩
  | .hbm, ⟨50, _⟩ => ⟨S_, .f32⟩
  | .hbm, ⟨51, _⟩ => ⟨S40000x128, .f32⟩
  | .hbm, ⟨52, _⟩ => ⟨S40000x128, .f32⟩
  | .hbm, ⟨53, _⟩ => ⟨S40000x128, .f32⟩
  | .hbm, ⟨54, _⟩ => ⟨S40000x128, .f32⟩
  | .hbm, ⟨55, _⟩ => ⟨S1x128, .f32⟩
  | .hbm, ⟨56, _⟩ => ⟨S40000x128, .f32⟩
  | .hbm, ⟨57, _⟩ => ⟨S40000x128, .f32⟩
  | .hbm, ⟨58, _⟩ => ⟨S40000x128, .f32⟩
  | _, _ => ⟨S40000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v16 : Ref sig .tc := ⟨.hbm, 35, rfl⟩
abbrev main_cst : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_call1_v0 : Ref sig .tc := ⟨.hbm, 45, rfl⟩
abbrev main_call1_v1 : Ref sig .tc := ⟨.hbm, 46, rfl⟩
abbrev main_call1_cst : Ref sig .tc := ⟨.hbm, 47, rfl⟩
abbrev main_call1_v2 : Ref sig .tc := ⟨.hbm, 48, rfl⟩
abbrev main_call1_v3 : Ref sig .tc := ⟨.hbm, 49, rfl⟩
abbrev main_call1_cst_0 : Ref sig .tc := ⟨.hbm, 50, rfl⟩
abbrev main_call1_v4 : Ref sig .tc := ⟨.hbm, 51, rfl⟩
abbrev main_call1_v5 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  concatenates_S640000x128_S640000x128_S640000x256_d1 : Shape.Concatenates [S640000x128, S640000x128] S640000x256 1
  bcast_S128_S1x128_1 : S128.BroadcastsInDim S1x128 (![1] : Fin 1 → Fin S1x128.rank)
  bcast_S1x128_S640000x128_0_1 : S1x128.BroadcastsInDim S640000x128 (![0, 1] : Fin 2 → Fin S640000x128.rank)
  bcast_S_S640000x128 : S_.BroadcastsInDim S640000x128 (![] : Fin 0 → Fin S640000x128.rank)
  bcast_S_S40000x128 : S_.BroadcastsInDim S40000x128 (![] : Fin 0 → Fin S40000x128.rank)
  concatenates_S40000x128_S40000x128_S40000x256_d1 : Shape.Concatenates [S40000x128, S40000x128] S40000x256 1
  bcast_S1x128_S40000x128_0_1 : S1x128.BroadcastsInDim S40000x128 (![0, 1] : Fin 2 → Fin S40000x128.rank)
  gather_S40000x128_S640000x1_S640000x128_1_0_n_n_0_1_1128_wf : GatherDims.WF S40000x128 S640000x1 S640000x128 [1] [0] [] [0] [] 1 ![1, 128]
  dot_S640000x256_S256x128_S640000x128_1_0_0_1_n_n_wf : DotDims.WF S640000x256 S256x128 S640000x128 [1] [0] [0] [1] [] []
  scatter_S40000x128_S640000x1_S640000x128_1_0_0_1_wf : ScatterDims.WF S40000x128 S640000x1 S640000x128 [1] [0] [0] 1
  dot_S40000x256_S256x128_S40000x128_1_0_0_1_n_n_wf : DotDims.WF S40000x256 S256x128 S40000x128 [1] [0] [0] [1] [] []
  dot_S40000x128_S128x128_S40000x128_1_0_0_1_n_n_wf : DotDims.WF S40000x128 S128x128 S40000x128 [1] [0] [0] [1] [] []

variable [Facts₀]

def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def dot_S640000x256_S256x128_S640000x128_1_0_0_1_n_n : DotDims S640000x256 S256x128 S640000x128 where
  lhsContracting := [1]
  rhsContracting := [0]
  lhsNonContracting := [0]
  rhsNonContracting := [1]
  lhsBatch := []
  rhsBatch := []
  wf := dot_S640000x256_S256x128_S640000x128_1_0_0_1_n_n_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def dot_S40000x256_S256x128_S40000x128_1_0_0_1_n_n : DotDims S40000x256 S256x128 S40000x128 where
  lhsContracting := [1]
  rhsContracting := [0]
  lhsNonContracting := [0]
  rhsNonContracting := [1]
  lhsBatch := []
  rhsBatch := []
  wf := dot_S40000x256_S256x128_S40000x128_1_0_0_1_n_n_wf
def dot_S40000x128_S128x128_S40000x128_1_0_0_1_n_n : DotDims S40000x128 S128x128 S40000x128 where
  lhsContracting := [1]
  rhsContracting := [0]
  lhsNonContracting := [0]
  rhsNonContracting := [1]
  lhsBatch := []
  rhsBatch := []
  wf := dot_S40000x128_S128x128_S40000x128_1_0_0_1_n_n_wf

class Facts : Prop extends Facts₀ where

variable [Facts]
-- ==== Proof.Spec.lean ====
/-
  The arithmetic of one message-passing layer, entry by entry, on the extended reals.

  A layer's first linear map takes TWO 128-wide rows (a node's features and an edge's, or a node's and its aggregate) to
  one 128-wide row: `lin2 a b Wa Wb β j = Σ_k a_k · Wa[k, j] + Σ_k b_k · Wb[k, j] + β_j`. Written over the two rows
  joined into one of width 256 and ONE weight matrix of 256 rows (rows 0…127 of it `Wa`, rows 128…255 `Wb`) the same entry
  is the single sum `Σ_{q < 256} u_q · W[q, j]`: a finite sum over `Fin (128 + 128)` splits at 128 (`sum_join`), which
  takes only that `+` on the extended reals is a commutative monoid; nothing here asks an entry to be finite.
  `silu p = p · σ(p)` with `σ p = 1 / (1 + e^{-p})` (`Ideal.logistic`, with its values `0` and `1` at `-∞` and `+∞`).

  The two whole-array functions:
  * `msg A B Wa Wb β` : the [640000, 128] array of messages, row `e` of it `silu (lin2 A[e] B[e] Wa Wb β)`;
  * `top W`, `bot W` : the two halves of a 256-row weight matrix, `row2d β` : a bias vector as one row;
  * `upd N G W1a W1b β1 W2 β2` : the [40000, 128] result, entry `(n, j)` of it
    `N[n, j] + (Σ_k silu (lin2 N[n] G[n] W1a W1b β1 k) · W2[k, j] + β2_j)`.
-/
import Idealize.ShloMosaic.PureOps.Ideal
import Idealize.ShloMosaic.PureOps.Ideal.Laws
import Idealize.ShloMosaic.Lib.ValueIdx
import Mathlib.Algebra.BigOperators.Fin

noncomputable section

open scoped BigOperators

namespace Cert.Spec

open Idealize.ShloMosaic Idealize.ShloMosaic.ValueIdx

/-- An `r × c` array of extended reals, indexed as the programs index a rank-2 buffer. -/
abbrev Mat (r c : Nat) : Type := (⟨2, ![r, c]⟩ : Shape).Idx → EReal

/-- `p · σ(p)`. -/
def silu (p : EReal) : EReal := p * Ideal.logistic p

/-- Entry `j` of the two-input linear map: `a · Wa + b · Wb + β`. -/
def lin2 (a b : Fin 128 → EReal) (wa wb : Mat 128 128) (bias : Mat 1 128) (j : Fin 128) : EReal :=
  (∑ k : Fin 128, a k * wa (ix2 k j)) + (∑ k : Fin 128, b k * wb (ix2 k j)) + bias (ix2 (0 : Fin 1) j)

/-- Row `n` of a 128-column array. -/
abbrev rowOf {R : Nat} (A : Mat R 128) (n : Fin R) : Fin 128 → EReal := fun k => A (ix2 n k)

/-- The messages: one row per edge. -/
def msg (A B : Mat 640000 128) (wa wb : Mat 128 128) (bias : Mat 1 128) : Mat 640000 128 :=
  fun i => silu (lin2 (rowOf A (i 0 : Fin 640000)) (rowOf B (i 0 : Fin 640000)) wa wb bias (i 1 : Fin 128))

/-- The updated nodes: the residual plus the second linear map of the activated first one. -/
def upd (N G : Mat 40000 128) (w1a w1b : Mat 128 128) (b1 : Mat 1 128) (w2 : Mat 128 128) (b2 : Mat 1 128) : Mat 40000 128 :=
  fun i => N i + ((∑ k : Fin 128, silu (lin2 (rowOf N (i 0 : Fin 40000)) (rowOf G (i 0 : Fin 40000)) w1a w1b b1 k) * w2 (ix2 k (i 1 : Fin 128)))
    + b2 (ix2 (0 : Fin 1) (i 1 : Fin 128)))

/-- Position `k` of the first 128 among 256. -/
abbrev lo (k : Fin 128) : Fin 256 := ⟨k.val, by have := k.isLt; omega⟩
/-- Position `k` of the last 128 among 256. -/
abbrev hi (k : Fin 128) : Fin 256 := ⟨128 + k.val, by have := k.isLt; omega⟩

/-- Rows 0…127 of a 256-row weight matrix: the half that multiplies the first input. -/
def top (w : Mat 256 128) : Mat 128 128 := fun i => w (ix2 (lo (i 0)) (i 1 : Fin 128))

/-- Rows 128…255 of it: the half that multiplies the second input. -/
def bot (w : Mat 256 128) : Mat 128 128 := fun i => w (ix2 (hi (i 0)) (i 1 : Fin 128))

/-- A bias vector as the one row of a [1, 128] array. -/
def row2d (b : (⟨1, ![128]⟩ : Shape).Idx → EReal) : Mat 1 128 := fun i => b (ix1 (i 1 : Fin 128))

/-- A sum over 256 = 128 + 128 terms is the sum of its first 128 and of its last 128. -/
theorem sum_join (f : Fin 256 → EReal) :
    ∑ q : Fin 256, f q = (∑ k : Fin 128, f (lo k)) + ∑ k : Fin 128, f (hi k) := by
  have h := Fin.sum_univ_add (M := EReal) (a := 128) (b := 128) f
  exact h

/-- The joined form of `lin2`'s two sums: if `u` is `a` then `b` and `w` is column `j` of `Wa` above column `j` of `Wb`,
    the one sum over 256 is the two sums over 128. -/
theorem sum_joined (a b : Fin 128 → EReal) (wa wb : Fin 128 → EReal) (u w : Fin 256 → EReal)
    (hua : ∀ k : Fin 128, u (lo k) = a k) (hub : ∀ k : Fin 128, u (hi k) = b k)
    (hwa : ∀ k : Fin 128, w (lo k) = wa k) (hwb : ∀ k : Fin 128, w (hi k) = wb k) :
    ∑ q : Fin 256, u q * w q = (∑ k : Fin 128, a k * wa k) + ∑ k : Fin 128, b k * wb k := by
  rw [sum_join]
  congr 1
  · exact Finset.sum_congr rfl fun k _ => by rw [hua k, hwa k]
  · exact Finset.sum_congr rfl fun k _ => by rw [hub k, hwb k]

/-- The f32 word of `1.0` denotes the real `1`. -/
theorem one_f32 : Ideal.ofBits .f32 0x3F800000#32 = 1 := by
  simp [Ideal.ofBits, Ideal.ieee, -EReal.coe_mul]; norm_num

/-- `p · (1 / (1 + e^{-p}))`, as a host program spells it, is `silu p`. -/
theorem silu_host (p : EReal) : p * Ideal.div 1 (1 + Ideal.exp (-p)) = silu p := rfl

end Cert.Spec

end
-- ==== Proof.Pay.lean ====
/-
  What each kernel body stores, read at one entry of its block, at the ideal instance.

  The message body stores `silu (x0 · x2 + x1 · x3 + x4)` for its blocks `x0, x1` (6400 rows each), the two weight halves
  `x2, x3` and the bias row `x4`: at `(r, j)` this is `silu (lin2 x0[r] x1[r] x2 x3 x4 j)` — a `tpu.matmul` into a zero
  accumulator is the plain sum over the contracted axis, the rounding to bf16 on the way in is the identity on extended
  reals, and the bias row is broadcast down the rows. The update body stores
  `x0 + (silu (x0 · x2 + x1 · x3 + x4) · x5 + x6)` for its blocks `x0, x1` of 5000 rows, likewise.
-/
import proofs.«122508_j13073880449416_1_alg».proof.Proof.Gen.KernelIdeal.Skeleton
import proofs.«122508_j13073880449416_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Body

open Cert.KernelIdeal Cert.KernelIdeal.Gen Idealize.ShloMosaic Idealize.ShloMosaic.ValueIdx

/-- `tpu.logistic` at an index is `σ` of the entry. -/
theorem logistic_apply {s : Shape} {φ : FTy} (v : FVec Ideal s φ) (i : s.Idx) : logistic v i = Ideal.logistic (v i) := rfl

/-! ## The 6400-row matrix product -/

theorem lhs6400_0 (i : S6400x128.Idx) (q : dot_S6400x128_S128x128_S6400x128_1_0_0_1_n_n.contr.Idx) :
    (dot_S6400x128_S128x128_S6400x128_1_0_0_1_n_n.lhsIdx i q 0).val = (i 0).val := by
  unfold DotDims.lhsIdx
  rw [dif_neg (show ¬(0 : Fin S6400x128.rank) ∈ dot_S6400x128_S128x128_S6400x128_1_0_0_1_n_n.lhsBatch by decide), dif_pos (show (0 : Fin S6400x128.rank) ∈ dot_S6400x128_S128x128_S6400x128_1_0_0_1_n_n.lhsNonContracting by decide)]
  rfl
theorem lhs6400_1 (i : S6400x128.Idx) (q : dot_S6400x128_S128x128_S6400x128_1_0_0_1_n_n.contr.Idx) :
    (dot_S6400x128_S128x128_S6400x128_1_0_0_1_n_n.lhsIdx i q 1).val = (q ⟨0, by decide⟩).val :=
  dot_S6400x128_S128x128_S6400x128_1_0_0_1_n_n.lhsIdx_val_of_single rfl i q
theorem rhs6400_0 (i : S6400x128.Idx) (q : dot_S6400x128_S128x128_S6400x128_1_0_0_1_n_n.contr.Idx) :
    (dot_S6400x128_S128x128_S6400x128_1_0_0_1_n_n.rhsIdx i q 0).val = (q ⟨0, by decide⟩).val :=
  dot_S6400x128_S128x128_S6400x128_1_0_0_1_n_n.rhsIdx_val_of_single rfl i q
theorem rhs6400_1 (i : S6400x128.Idx) (q : dot_S6400x128_S128x128_S6400x128_1_0_0_1_n_n.contr.Idx) :
    (dot_S6400x128_S128x128_S6400x128_1_0_0_1_n_n.rhsIdx i q 1).val = (i 1).val := by
  unfold DotDims.rhsIdx
  rw [dif_neg (show ¬(1 : Fin S128x128.rank) ∈ dot_S6400x128_S128x128_S6400x128_1_0_0_1_n_n.rhsBatch by decide), dif_pos (show (1 : Fin S128x128.rank) ∈ dot_S6400x128_S128x128_S6400x128_1_0_0_1_n_n.rhsNonContracting by decide)]
  rfl

/-- A [6400,128] × [128,128] product into zeros, at `(r, j)`: `Σ_k a[r, k] · w[k, j]`. -/
theorem mm6400_apply (a : FVec Ideal S6400x128 .bf16) (w : FVec Ideal S128x128 .bf16) (r : Fin 6400) (j : Fin 128) :
    matmul dot_S6400x128_S128x128_S6400x128_1_0_0_1_n_n none a w (constant S6400x128 .f32 0x00000000#32) (ix2 r j)
      = ∑ k : Fin 128, a (ix2 r k) * w (ix2 k j) := by
  refine (Ideal.matmul_constant_zero_apply dot_S6400x128_S128x128_S6400x128_1_0_0_1_n_n none a w (ix2 r j)).trans ?_
  rw [← Equiv.sum_comp (ValueIdx.contrEquiv1 dot_S6400x128_S128x128_S6400x128_1_0_0_1_n_n 128 rfl rfl).symm]
  refine Finset.sum_congr rfl fun k _ => ?_
  have hk := ValueIdx.contrEquiv1_symm_val dot_S6400x128_S128x128_S6400x128_1_0_0_1_n_n 128 rfl rfl k
  have el : dot_S6400x128_S128x128_S6400x128_1_0_0_1_n_n.lhsIdx (ix2 r j) ((ValueIdx.contrEquiv1 dot_S6400x128_S128x128_S6400x128_1_0_0_1_n_n 128 rfl rfl).symm k) = ix2 r k := funext fun ax => Fin.ext (by
    match ax with
    | ⟨0, _⟩ => exact lhs6400_0 _ _
    | ⟨1, _⟩ => exact (lhs6400_1 _ _).trans hk)
  have er : dot_S6400x128_S128x128_S6400x128_1_0_0_1_n_n.rhsIdx (ix2 r j) ((ValueIdx.contrEquiv1 dot_S6400x128_S128x128_S6400x128_1_0_0_1_n_n 128 rfl rfl).symm k) = ix2 k j := funext fun ax => Fin.ext (by
    match ax with
    | ⟨0, _⟩ => exact (rhs6400_0 _ _).trans hk
    | ⟨1, _⟩ => exact rhs6400_1 _ _)
  rw [el, er]

/-- The message body's stored value at `(r, j)`. -/
theorem pay0_apply (x0 x1 : Vec Ideal S6400x128 .f32) (x2 x3 : Vec Ideal S128x128 .f32) (x4 : Vec Ideal S1x128 .f32) (r : Fin 6400) (j : Fin 128) :
    k0_pay1 (F := Ideal) x0 x1 x2 x3 x4 (ix2 r j)
      = Spec.silu (Spec.lin2 (fun k => x0 (ix2 r k)) (fun k => x1 (ix2 r k)) x2 x3 x4 j) := by
  unfold k0_pay1
  simp only [shapeCast_self]
  have e1 := mm6400_apply (truncf .bf16 x0 bitsLt_bf16_f32) (truncf .bf16 x2 bitsLt_bf16_f32) r j
  have e2 := mm6400_apply (truncf .bf16 x1 bitsLt_bf16_f32) (truncf .bf16 x3 bitsLt_bf16_f32) r j
  have e3 := broadcastTo_1b_ab_apply x4 broadcasts_S1x128_S6400x128 r j
  simp only [mulf_apply, addf_apply, logistic_apply]
  rw [e1, e2, e3]
  rfl

/-! ## The 5000-row matrix product -/

theorem lhs5000_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs5000_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs5000_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs5000_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A [5000,128] × [128,128] product into zeros, at `(r, j)`: `Σ_k a[r, k] · w[k, j]`. -/
theorem mm5000_apply (a : FVec Ideal S5000x128 .bf16) (w : FVec Ideal S128x128 .bf16) (r : Fin 5000) (j : Fin 128) :
    matmul dot_S5000x128_S128x128_S5000x128_1_0_0_1_n_n none a w (constant S5000x128 .f32 0x00000000#32) (ix2 r j)
      = ∑ k : Fin 128, a (ix2 r k) * w (ix2 k j) := by
  refine (Ideal.matmul_constant_zero_apply dot_S5000x128_S128x128_S5000x128_1_0_0_1_n_n none a w (ix2 r j)).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 r j) ((ValueIdx.contrEquiv1 dot_S5000x128_S128x128_S5000x128_1_0_0_1_n_n 128 rfl rfl).symm k) = ix2 r k := funext fun ax => Fin.ext (by
    match ax with
    | ⟨0, _⟩ => exact lhs5000_0 _ _
    | ⟨1, _⟩ => exact (lhs5000_1 _ _).trans hk)
  have er : dot_S5000x128_S128x128_S5000x128_1_0_0_1_n_n.rhsIdx (ix2 r j) ((ValueIdx.contrEquiv1 dot_S5000x128_S128x128_S5000x128_1_0_0_1_n_n 128 rfl rfl).symm k) = ix2 k j := funext fun ax => Fin.ext (by
    match ax with
    | ⟨0, _⟩ => exact (rhs5000_0 _ _).trans hk
    | ⟨1, _⟩ => exact rhs5000_1 _ _)
  rw [el, er]

/-- The update body's activated first layer, as the body spells it. -/
def hid5000 (x0 x1 : Vec Ideal S5000x128 .f32) (x2 x3 : Vec Ideal S128x128 .f32) (x4 : Vec Ideal S1x128 .f32) : FVec Ideal S5000x128 .f32 :=
  mulf (addf (addf (matmul dot_S5000x128_S128x128_S5000x128_1_0_0_1_n_n none (truncf .bf16 x0 bitsLt_bf16_f32) (truncf .bf16 x2 bitsLt_bf16_f32) (constant S5000x128 .f32 0x00000000#32))
        (matmul dot_S5000x128_S128x128_S5000x128_1_0_0_1_n_n none (truncf .bf16 x1 bitsLt_bf16_f32) (truncf .bf16 x3 bitsLt_bf16_f32) (constant S5000x128 .f32 0x00000000#32)))
      (broadcastTo S5000x128 x4 broadcasts_S1x128_S5000x128))
    (logistic (addf (addf (matmul dot_S5000x128_S128x128_S5000x128_1_0_0_1_n_n none (truncf .bf16 x0 bitsLt_bf16_f32) (truncf .bf16 x2 bitsLt_bf16_f32) (constant S5000x128 .f32 0x00000000#32))
        (matmul dot_S5000x128_S128x128_S5000x128_1_0_0_1_n_n none (truncf .bf16 x1 bitsLt_bf16_f32) (truncf .bf16 x3 bitsLt_bf16_f32) (constant S5000x128 .f32 0x00000000#32)))
      (broadcastTo S5000x128 x4 broadcasts_S1x128_S5000x128)))

/-- Its entry `(r, k)`. -/
theorem hid5000_apply (x0 x1 : Vec Ideal S5000x128 .f32) (x2 x3 : Vec Ideal S128x128 .f32) (x4 : Vec Ideal S1x128 .f32) (r : Fin 5000) (k : Fin 128) :
    hid5000 x0 x1 x2 x3 x4 (ix2 r k)
      = Spec.silu (Spec.lin2 (fun q => x0 (ix2 r q)) (fun q => x1 (ix2 r q)) x2 x3 x4 k) := by
  unfold hid5000
  have e1 := mm5000_apply (truncf .bf16 x0 bitsLt_bf16_f32) (truncf .bf16 x2 bitsLt_bf16_f32) r k
  have e2 := mm5000_apply (truncf .bf16 x1 bitsLt_bf16_f32) (truncf .bf16 x3 bitsLt_bf16_f32) r k
  have e3 := broadcastTo_1b_ab_apply x4 broadcasts_S1x128_S5000x128 r k
  simp only [mulf_apply, addf_apply, logistic_apply]
  rw [e1, e2, e3]
  rfl

/-- The update body's stored value at `(r, j)`. -/
theorem pay1_apply (x0 x1 : Vec Ideal S5000x128 .f32) (x2 x3 : Vec Ideal S128x128 .f32) (x4 : Vec Ideal S1x128 .f32)
    (x5 : Vec Ideal S128x128 .f32) (x6 : Vec Ideal S1x128 .f32) (r : Fin 5000) (j : Fin 128) :
    k1_pay1 (F := Ideal) x0 x1 x2 x3 x4 x5 x6 (ix2 r j)
      = x0 (ix2 r j) + ((∑ k : Fin 128, Spec.silu (Spec.lin2 (fun q => x0 (ix2 r q)) (fun q => x1 (ix2 r q)) x2 x3 x4 k) * x5 (ix2 k j))
          + x6 (ix2 (0 : Fin 1) j)) := by
  unfold k1_pay1
  simp only [shapeCast_self]
  show addf x0 (addf (matmul dot_S5000x128_S128x128_S5000x128_1_0_0_1_n_n none (truncf .bf16 (hid5000 x0 x1 x2 x3 x4) bitsLt_bf16_f32) (truncf .bf16 x5 bitsLt_bf16_f32) (constant S5000x128 .f32 0x00000000#32))
      (broadcastTo S5000x128 x6 broadcasts_S1x128_S5000x128)) (ix2 r j) = _
  have e1 := mm5000_apply (truncf .bf16 (hid5000 x0 x1 x2 x3 x4) bitsLt_bf16_f32) (truncf .bf16 x5 bitsLt_bf16_f32) r j
  have e3 := broadcastTo_1b_ab_apply x6 broadcasts_S1x128_S5000x128 r j
  simp only [addf_apply]
  rw [e1, e3]
  simp only [truncf_apply, hid5000_apply]

end Cert.KernelIdeal.Body

end
-- ==== Proof.Region0.lean ====
/-
  Region 0 (the message kernel) as ONE function of the arrays it is entered with, at the ideal instance.

  The grid has 100 points; point `t` stages rows `6400 t … 6400 t + 6399` of the gathered node features and of the edge
  features, and the two weight halves and the bias row whole; the body stores `silu (lin2 …)` of them (Pay.lean), and the
  write-back puts it at the same rows of the output. So what point `t` writes back is block `t` of
  `Spec.msg A B Wa Wb β` (`flushed0`), the 100 blocks tile the 640000 rows (`cover0`), and the output array ends holding
  `Spec.msg …` (`final0`). The entry contents are a parameter `V`: nothing here looks at what the host operations before
  the region computed.
-/
import proofs.«122508_j13073880449416_1_alg».proof.Proof.Gen.KernelIdeal.Frame
import proofs.«122508_j13073880449416_1_alg».proof.Proof.Spec
import proofs.«122508_j13073880449416_1_alg».proof.Proof.Pay
import Idealize.ShloMosaic.Lib.Pipeline.Value
import Idealize.ShloMosaic.Lib.ValueIdx

noncomputable section

open scoped BigOperators

namespace Cert.KernelIdeal.Region0

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the two row-blocked inputs and the output move one block of 6400 rows per
    point; the weight halves and the bias row stay at block (0, 0). -/
theorem idx0 : ∀ t : Fin cfg0.N,
      win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem tlt (t : Fin cfg0.N) : t.val < 100 := by
  have h : t.val < cfg0.N := t.isLt
  have e : cfg0.N = 100 := N_0
  omega

abbrev xa (c : Dev nD) (t : Fin cfg0.N) : Vec Ideal S6400x128 .f32 := iblk0 V c 0 t
abbrev xb (c : Dev nD) (t : Fin cfg0.N) : Vec Ideal S6400x128 .f32 := iblk0 V c 1 t
abbrev xwa (c : Dev nD) (t : Fin cfg0.N) : Vec Ideal S128x128 .f32 := iblk0 V c 2 t
abbrev xwb (c : Dev nD) (t : Fin cfg0.N) : Vec Ideal S128x128 .f32 := iblk0 V c 3 t
abbrev xbias (c : Dev nD) (t : Fin cfg0.N) : Vec Ideal S1x128 .f32 := iblk0 V c 4 t
abbrev arrA (c : Dev nD) : Spec.Mat 640000 128 := V c main_v10
abbrev arrB (c : Dev nD) : Spec.Mat 640000 128 := V c main_arg2
abbrev arrWa (c : Dev nD) : Spec.Mat 128 128 := V c main_v11
abbrev arrWb (c : Dev nD) : Spec.Mat 128 128 := V c main_v12
abbrev arrBias (c : Dev nD) : Spec.Mat 1 128 := V c main_v13

theorem xa_apply (c : Dev nD) (t : Fin cfg0.N) (r : Fin 6400) (k : Fin 128) :
    xa V c t (ix2 r k) = arrA V c (ix2 ⟨t.val * 6400 + r.val, by have := tlt t; have := r.isLt; omega⟩ k) := by
  obtain ⟨e0, e1, -⟩ := idx0 t
  unfold xa iblk0
  rw [View.read_apply]
  show V c main_v10 _ = V c main_v10 _
  congr 1
  funext a; apply Fin.ext
  match a with
  | ⟨0, _⟩ => show win0_0.index t 0 * 6400 + 1 * r.val = t.val * 6400 + r.val; rw [e0]; omega
  | ⟨1, _⟩ => show win0_0.index t 1 * 128 + 1 * k.val = k.val; rw [e1]; omega

theorem xb_apply (c : Dev nD) (t : Fin cfg0.N) (r : Fin 6400) (k : Fin 128) :
    xb V c t (ix2 r k) = arrB V c (ix2 ⟨t.val * 6400 + r.val, by have := tlt t; have := r.isLt; omega⟩ k) := by
  obtain ⟨-, -, e0, e1, -⟩ := idx0 t
  unfold xb iblk0
  rw [View.read_apply]
  show V c main_arg2 _ = V c main_arg2 _
  congr 1
  funext a; apply Fin.ext
  match a with
  | ⟨0, _⟩ => show win0_1.index t 0 * 6400 + 1 * r.val = t.val * 6400 + r.val; rw [e0]; omega
  | ⟨1, _⟩ => show win0_1.index t 1 * 128 + 1 * k.val = k.val; rw [e1]; omega

theorem xwa_eq (c : Dev nD) (t : Fin cfg0.N) : xwa V c t = arrWa V c := by
  obtain ⟨-, -, -, -, e0, e1, -⟩ := idx0 t
  funext y
  obtain ⟨p, q, rfl⟩ : ∃ (p : Fin 128) (q : Fin 128), y = ix2 p q := ⟨y 0, y 1, eq_ix2 y⟩
  unfold xwa iblk0
  rw [View.read_apply]
  show V c main_v11 _ = V c main_v11 _
  congr 1
  funext a; apply Fin.ext
  match a with
  | ⟨0, _⟩ => show win0_2.index t 0 * 128 + 1 * p.val = p.val; rw [e0]; omega
  | ⟨1, _⟩ => show win0_2.index t 1 * 128 + 1 * q.val = q.val; rw [e1]; omega

theorem xwb_eq (c : Dev nD) (t : Fin cfg0.N) : xwb V c t = arrWb V c := by
  obtain ⟨-, -, -, -, -, -, e0, e1, -⟩ := idx0 t
  funext y
  obtain ⟨p, q, rfl⟩ : ∃ (p : Fin 128) (q : Fin 128), y = ix2 p q := ⟨y 0, y 1, eq_ix2 y⟩
  unfold xwb iblk0
  rw [View.read_apply]
  show V c main_v12 _ = V c main_v12 _
  congr 1
  funext a; apply Fin.ext
  match a with
  | ⟨0, _⟩ => show win0_3.index t 0 * 128 + 1 * p.val = p.val; rw [e0]; omega
  | ⟨1, _⟩ => show win0_3.index t 1 * 128 + 1 * q.val = q.val; rw [e1]; omega

theorem xbias_eq (c : Dev nD) (t : Fin cfg0.N) : xbias V c t = arrBias V c := by
  obtain ⟨-, -, -, -, -, -, -, -, e0, e1, -⟩ := idx0 t
  funext y
  obtain ⟨p, q, rfl⟩ : ∃ (p : Fin 1) (q : Fin 128), y = ix2 p q := ⟨y 0, y 1, eq_ix2 y⟩
  unfold xbias iblk0
  rw [View.read_apply]
  show V c main_v13 _ = V c main_v13 _
  congr 1
  funext a; apply Fin.ext
  match a with
  | ⟨0, _⟩ => show win0_4.index t 0 * 1 + 1 * p.val = p.val; rw [e0]; omega
  | ⟨1, _⟩ => show win0_4.index t 1 * 128 + 1 * q.val = q.val; rw [e1]; omega

/-- The message array as region 0 computes it from the arrays it finds. -/
abbrev G0 (c : Dev nD) : Spec.Mat 640000 128 := Spec.msg (arrA V c) (arrB V c) (arrWa V c) (arrWb V c) (arrBias V c)

/-- What point `t` writes back is block `t` (rows `6400 t … 6400 t + 6399`) of the message array. -/
theorem flushed0 (c : Dev nD) (t : Fin cfg0.N) :
    (dat0 V c).flushed 5 t = ((cfg0.win 5).blk t).view.read (Elt Ideal) (G0 V c) := by
  show (cfg0.win 5).cut (grid0.coords t) ((dat0 V c).after 5 t) = _
  rw [after0_5]
  unfold out0_5
  rw [View.canon_unit_zero hz]
  simp only [View.ld_unit_zero (S := S6400x128) hz, View.ld_unit_zero (S := S128x128) hz, View.ld_unit_zero (S := S1x128) hz]
  obtain ⟨-, -, -, -, -, -, -, -, -, -, e0, e1⟩ := idx0 t
  have ht := tlt t
  funext y
  rw [View.read_apply]
  have hy0 : (y 0).val < 6400 := (y 0).isLt
  have hy1 : (y 1).val < 128 := (y 1).isLt
  have hx : (cfg0.win 5).xinj (grid0.coords t) y = ix2 (⟨(y 0).val, hy0⟩ : Fin 6400) (⟨(y 1).val, hy1⟩ : Fin 128) :=
    funext fun a => by match a with | ⟨0, _⟩ => rfl | ⟨1, _⟩ => rfl
  have hi : ((cfg0.win 5).blk t).view.emb y = ix2 (⟨t.val * 6400 + (y 0).val, by omega⟩ : Fin 640000) (⟨(y 1).val, hy1⟩ : Fin 128) :=
    funext fun a => Fin.ext (by
      match a with
      | ⟨0, _⟩ => show win0_5.index t 0 * 6400 + 1 * (y 0).val = t.val * 6400 + (y 0).val; rw [e0]; omega
      | ⟨1, _⟩ => show win0_5.index t 1 * 128 + 1 * (y 1).val = (y 1).val; rw [e1]; omega)
  show k0_pay1 (xa V c t) (xb V c t) (xwa V c t) (xwb V c t) (xbias V c t) ((cfg0.win 5).xinj (grid0.coords t) y) = G0 V c (((cfg0.win 5).blk t).view.emb y)
  rw [hx, hi, Body.pay0_apply, xwa_eq, xwb_eq, xbias_eq]
  simp only [xa_apply, xb_apply]
  rfl

/-- The 100 blocks of 6400 rows tile the 640000 rows. -/
theorem cover0 (i : S640000x128.Idx) : ∃ t : Fin cfg0.N, (cfg0.win 5).flush t = true ∧ i ∈ ((cfg0.win 5).blk t).view.set := by
  have h0 : (i 0).val < 640000 := (i 0).isLt
  have h1 : (i 1).val < 128 := (i 1).isLt
  have hN : cfg0.N = 100 := N_0
  have htl : (i 0).val / 6400 < cfg0.N := by rw [hN]; omega
  obtain ⟨-, -, -, -, -, -, -, -, -, -, e0, e1⟩ := idx0 ⟨(i 0).val / 6400, htl⟩
  refine ⟨⟨(i 0).val / 6400, htl⟩, flush0_5 _, ?_⟩
  show i ∈ ((View.whole main_v14).slice (win0_5.rect ⟨(i 0).val / 6400, htl⟩)).set
  rw [View.set_slice_whole, Rect.mem_set_unit]
  intro a
  match a with
  | ⟨0, _⟩ =>
    show win0_5.index ⟨(i 0).val / 6400, htl⟩ 0 * 6400 ≤ (i 0).val ∧ (i 0).val < win0_5.index ⟨(i 0).val / 6400, htl⟩ 0 * 6400 + 6400
    rw [e0]; show (i 0).val / 6400 * 6400 ≤ (i 0).val ∧ (i 0).val < (i 0).val / 6400 * 6400 + 6400; omega
  | ⟨1, _⟩ =>
    show win0_5.index ⟨(i 0).val / 6400, htl⟩ 1 * 128 ≤ (i 1).val ∧ (i 1).val < win0_5.index ⟨(i 0).val / 6400, htl⟩ 1 * 128 + 128
    rw [e1]; omega

/-- Region 0 leaves the message array in its output. -/
theorem final0 (c : Dev nD) : (dat0 V c).arrAt 5 cfg0.N = G0 V c :=
  (dat0 V c).arrAt_eq_of_cover 5 (G0 V c) (fun t _ => flushed0 V c t) cover0

end Cert.KernelIdeal.Region0

end
-- ==== Proof.Region1.lean ====
/-
  Region 1 (the update kernel) as ONE function of the arrays it is entered with, at the ideal instance.

  The grid has 8 points; point `t` stages rows `5000 t … 5000 t + 4999` of the node features and of the aggregated
  messages, and the three weight matrices and the two bias rows whole; the body stores
  `x + (silu (lin2 …) · W2 + β2)` of them (Pay.lean) and the write-back puts it at the same rows of the output. So what
  point `t` writes back is block `t` of `Spec.upd N G W1a W1b β1 W2 β2` (`flushed1`), the 8 blocks tile the 40000 rows
  (`cover1`), and the output array ends holding `Spec.upd …` (`final1`). The entry contents are a parameter `V`.
-/
import proofs.«122508_j13073880449416_1_alg».proof.Proof.Gen.KernelIdeal.Frame
import proofs.«122508_j13073880449416_1_alg».proof.Proof.Spec
import proofs.«122508_j13073880449416_1_alg».proof.Proof.Pay
import Idealize.ShloMosaic.Lib.Pipeline.Value
import Idealize.ShloMosaic.Lib.ValueIdx

noncomputable section

open scoped BigOperators

namespace Cert.KernelIdeal.Region1

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the node block, the aggregate block and the output move one block of 5000
    rows per point; the weights and the bias rows stay at block (0, 0). -/
theorem idx1 : ∀ t : Fin cfg1.N,
      win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

theorem tlt (t : Fin cfg1.N) : t.val < 8 := by
  have h : t.val < cfg1.N := t.isLt
  have e : cfg1.N = 8 := N_1
  omega

abbrev xn (c : Dev nD) (t : Fin cfg1.N) : Vec Ideal S5000x128 .f32 := iblk1 V c 0 t
abbrev xg (c : Dev nD) (t : Fin cfg1.N) : Vec Ideal S5000x128 .f32 := iblk1 V c 1 t
abbrev xw1a (c : Dev nD) (t : Fin cfg1.N) : Vec Ideal S128x128 .f32 := iblk1 V c 2 t
abbrev xw1b (c : Dev nD) (t : Fin cfg1.N) : Vec Ideal S128x128 .f32 := iblk1 V c 3 t
abbrev xb1 (c : Dev nD) (t : Fin cfg1.N) : Vec Ideal S1x128 .f32 := iblk1 V c 4 t
abbrev xw2 (c : Dev nD) (t : Fin cfg1.N) : Vec Ideal S128x128 .f32 := iblk1 V c 5 t
abbrev xb2 (c : Dev nD) (t : Fin cfg1.N) : Vec Ideal S1x128 .f32 := iblk1 V c 6 t
abbrev arrN (c : Dev nD) : Spec.Mat 40000 128 := V c main_arg0
abbrev arrG (c : Dev nD) : Spec.Mat 40000 128 := V c main_v17
abbrev arrW1a (c : Dev nD) : Spec.Mat 128 128 := V c main_v18
abbrev arrW1b (c : Dev nD) : Spec.Mat 128 128 := V c main_v19
abbrev arrB1 (c : Dev nD) : Spec.Mat 1 128 := V c main_v20
abbrev arrW2 (c : Dev nD) : Spec.Mat 128 128 := V c main_arg7
abbrev arrB2 (c : Dev nD) : Spec.Mat 1 128 := V c main_v21

theorem xn_apply (c : Dev nD) (t : Fin cfg1.N) (r : Fin 5000) (k : Fin 128) :
    xn V c t (ix2 r k) = arrN V c (ix2 ⟨t.val * 5000 + r.val, by have := tlt t; have := r.isLt; omega⟩ k) := by
  obtain ⟨e0, e1, -⟩ := idx1 t
  unfold xn iblk1
  rw [View.read_apply]
  show V c main_arg0 _ = V c main_arg0 _
  congr 1
  funext a; apply Fin.ext
  match a with
  | ⟨0, _⟩ => show win1_0.index t 0 * 5000 + 1 * r.val = t.val * 5000 + r.val; rw [e0]; omega
  | ⟨1, _⟩ => show win1_0.index t 1 * 128 + 1 * k.val = k.val; rw [e1]; omega

theorem xg_apply (c : Dev nD) (t : Fin cfg1.N) (r : Fin 5000) (k : Fin 128) :
    xg V c t (ix2 r k) = arrG V c (ix2 ⟨t.val * 5000 + r.val, by have := tlt t; have := r.isLt; omega⟩ k) := by
  obtain ⟨-, -, e0, e1, -⟩ := idx1 t
  unfold xg iblk1
  rw [View.read_apply]
  show V c main_v17 _ = V c main_v17 _
  congr 1
  funext a; apply Fin.ext
  match a with
  | ⟨0, _⟩ => show win1_1.index t 0 * 5000 + 1 * r.val = t.val * 5000 + r.val; rw [e0]; omega
  | ⟨1, _⟩ => show win1_1.index t 1 * 128 + 1 * k.val = k.val; rw [e1]; omega

theorem xw1a_eq (c : Dev nD) (t : Fin cfg1.N) : xw1a V c t = arrW1a V c := by
  obtain ⟨-, -, -, -, e0, e1, -⟩ := idx1 t
  funext y
  obtain ⟨p, q, rfl⟩ : ∃ (p : Fin 128) (q : Fin 128), y = ix2 p q := ⟨y 0, y 1, eq_ix2 y⟩
  unfold xw1a iblk1
  rw [View.read_apply]
  show V c main_v18 _ = V c main_v18 _
  congr 1
  funext a; apply Fin.ext
  match a with
  | ⟨0, _⟩ => show win1_2.index t 0 * 128 + 1 * p.val = p.val; rw [e0]; omega
  | ⟨1, _⟩ => show win1_2.index t 1 * 128 + 1 * q.val = q.val; rw [e1]; omega

theorem xw1b_eq (c : Dev nD) (t : Fin cfg1.N) : xw1b V c t = arrW1b V c := by
  obtain ⟨-, -, -, -, -, -, e0, e1, -⟩ := idx1 t
  funext y
  obtain ⟨p, q, rfl⟩ : ∃ (p : Fin 128) (q : Fin 128), y = ix2 p q := ⟨y 0, y 1, eq_ix2 y⟩
  unfold xw1b iblk1
  rw [View.read_apply]
  show V c main_v19 _ = V c main_v19 _
  congr 1
  funext a; apply Fin.ext
  match a with
  | ⟨0, _⟩ => show win1_3.index t 0 * 128 + 1 * p.val = p.val; rw [e0]; omega
  | ⟨1, _⟩ => show win1_3.index t 1 * 128 + 1 * q.val = q.val; rw [e1]; omega

theorem xb1_eq (c : Dev nD) (t : Fin cfg1.N) : xb1 V c t = arrB1 V c := by
  obtain ⟨-, -, -, -, -, -, -, -, e0, e1, -⟩ := idx1 t
  funext y
  obtain ⟨p, q, rfl⟩ : ∃ (p : Fin 1) (q : Fin 128), y = ix2 p q := ⟨y 0, y 1, eq_ix2 y⟩
  unfold xb1 iblk1
  rw [View.read_apply]
  show V c main_v20 _ = V c main_v20 _
  congr 1
  funext a; apply Fin.ext
  match a with
  | ⟨0, _⟩ => show win1_4.index t 0 * 1 + 1 * p.val = p.val; rw [e0]; omega
  | ⟨1, _⟩ => show win1_4.index t 1 * 128 + 1 * q.val = q.val; rw [e1]; omega

theorem xw2_eq (c : Dev nD) (t : Fin cfg1.N) : xw2 V c t = arrW2 V c := by
  obtain ⟨-, -, -, -, -, -, -, -, -, -, e0, e1, -⟩ := idx1 t
  funext y
  obtain ⟨p, q, rfl⟩ : ∃ (p : Fin 128) (q : Fin 128), y = ix2 p q := ⟨y 0, y 1, eq_ix2 y⟩
  unfold xw2 iblk1
  rw [View.read_apply]
  show V c main_arg7 _ = V c main_arg7 _
  congr 1
  funext a; apply Fin.ext
  match a with
  | ⟨0, _⟩ => show win1_5.index t 0 * 128 + 1 * p.val = p.val; rw [e0]; omega
  | ⟨1, _⟩ => show win1_5.index t 1 * 128 + 1 * q.val = q.val; rw [e1]; omega

theorem xb2_eq (c : Dev nD) (t : Fin cfg1.N) : xb2 V c t = arrB2 V c := by
  obtain ⟨-, -, -, -, -, -, -, -, -, -, -, -, e0, e1, -⟩ := idx1 t
  funext y
  obtain ⟨p, q, rfl⟩ : ∃ (p : Fin 1) (q : Fin 128), y = ix2 p q := ⟨y 0, y 1, eq_ix2 y⟩
  unfold xb2 iblk1
  rw [View.read_apply]
  show V c main_v21 _ = V c main_v21 _
  congr 1
  funext a; apply Fin.ext
  match a with
  | ⟨0, _⟩ => show win1_6.index t 0 * 1 + 1 * p.val = p.val; rw [e0]; omega
  | ⟨1, _⟩ => show win1_6.index t 1 * 128 + 1 * q.val = q.val; rw [e1]; omega

/-- The updated node array as region 1 computes it from the arrays it finds. -/
abbrev G1 (c : Dev nD) : Spec.Mat 40000 128 :=
  Spec.upd (arrN V c) (arrG V c) (arrW1a V c) (arrW1b V c) (arrB1 V c) (arrW2 V c) (arrB2 V c)

/-- What point `t` writes back is block `t` (rows `5000 t … 5000 t + 4999`) of the updated node array. -/
theorem flushed1 (c : Dev nD) (t : Fin cfg1.N) :
    (dat1 V c).flushed 7 t = ((cfg1.win 7).blk t).view.read (Elt Ideal) (G1 V c) := by
  show (cfg1.win 7).cut (grid1.coords t) ((dat1 V c).after 7 t) = _
  rw [after1_7]
  unfold out1_7
  rw [View.canon_unit_zero hz]
  simp only [View.ld_unit_zero (S := S5000x128) hz, View.ld_unit_zero (S := S128x128) hz, View.ld_unit_zero (S := S1x128) hz]
  obtain ⟨-, -, -, -, -, -, -, -, -, -, -, -, -, -, e0, e1⟩ := idx1 t
  have ht := tlt t
  funext y
  rw [View.read_apply]
  have hy0 : (y 0).val < 5000 := (y 0).isLt
  have hy1 : (y 1).val < 128 := (y 1).isLt
  have hx : (cfg1.win 7).xinj (grid1.coords t) y = ix2 (⟨(y 0).val, hy0⟩ : Fin 5000) (⟨(y 1).val, hy1⟩ : Fin 128) :=
    funext fun a => by match a with | ⟨0, _⟩ => rfl | ⟨1, _⟩ => rfl
  have hi : ((cfg1.win 7).blk t).view.emb y = ix2 (⟨t.val * 5000 + (y 0).val, by omega⟩ : Fin 40000) (⟨(y 1).val, hy1⟩ : Fin 128) :=
    funext fun a => Fin.ext (by
      match a with
      | ⟨0, _⟩ => show win1_7.index t 0 * 5000 + 1 * (y 0).val = t.val * 5000 + (y 0).val; rw [e0]; omega
      | ⟨1, _⟩ => show win1_7.index t 1 * 128 + 1 * (y 1).val = (y 1).val; rw [e1]; omega)
  show k1_pay1 (xn V c t) (xg V c t) (xw1a V c t) (xw1b V c t) (xb1 V c t) (xw2 V c t) (xb2 V c t) ((cfg1.win 7).xinj (grid1.coords t) y) = G1 V c (((cfg1.win 7).blk t).view.emb y)
  rw [hx, hi, Body.pay1_apply, xw1a_eq, xw1b_eq, xb1_eq, xw2_eq, xb2_eq]
  simp only [xn_apply, xg_apply]
  rfl

/-- The 8 blocks of 5000 rows tile the 40000 rows. -/
theorem cover1 (i : S40000x128.Idx) : ∃ t : Fin cfg1.N, (cfg1.win 7).flush t = true ∧ i ∈ ((cfg1.win 7).blk t).view.set := by
  have h0 : (i 0).val < 40000 := (i 0).isLt
  have h1 : (i 1).val < 128 := (i 1).isLt
  have hN : cfg1.N = 8 := N_1
  have htl : (i 0).val / 5000 < cfg1.N := by rw [hN]; omega
  obtain ⟨-, -, -, -, -, -, -, -, -, -, -, -, -, -, e0, e1⟩ := idx1 ⟨(i 0).val / 5000, htl⟩
  refine ⟨⟨(i 0).val / 5000, htl⟩, flush1_7 _, ?_⟩
  show i ∈ ((View.whole main_v22).slice (win1_7.rect ⟨(i 0).val / 5000, htl⟩)).set
  rw [View.set_slice_whole, Rect.mem_set_unit]
  intro a
  match a with
  | ⟨0, _⟩ =>
    show win1_7.index ⟨(i 0).val / 5000, htl⟩ 0 * 5000 ≤ (i 0).val ∧ (i 0).val < win1_7.index ⟨(i 0).val / 5000, htl⟩ 0 * 5000 + 5000
    rw [e0]; show (i 0).val / 5000 * 5000 ≤ (i 0).val ∧ (i 0).val < (i 0).val / 5000 * 5000 + 5000; omega
  | ⟨1, _⟩ =>
    show win1_7.index ⟨(i 0).val / 5000, htl⟩ 1 * 128 ≤ (i 1).val ∧ (i 1).val < win1_7.index ⟨(i 0).val / 5000, htl⟩ 1 * 128 + 128
    rw [e1]; omega

/-- Region 1 leaves the updated node array in its output. -/
theorem final1 (c : Dev nD) : (dat1 V c).arrAt 7 cfg1.N = G1 V c :=
  (dat1 V c).arrAt_eq_of_cover 7 (G1 V c) (fun t _ => flushed1 V c t) cover1

end Cert.KernelIdeal.Region1

end
-- ==== Proof.KernelValue.lean ====
/-
  The idealized kernel's result array as ONE function of the nine argument arrays.

  @main is four stretches: host operations (the two index rows out of `edge_index`, the source rows wrapped when negative,
  the gather of node rows, the halves of the message weights, the message bias as one row), region 0, host operations (the
  scatter-add of the messages onto their target rows from zeros, the halves of the update weights, the two update biases as
  rows), region 1. Each region's output is `Spec.msg` / `Spec.upd` of the arrays it is entered with (Region0.lean,
  Region1.lean); here each of those arrays is read back through the fold of the host operations to the arguments:
  * a half of a weight matrix is `Spec.top` / `Spec.bot` of the argument, a reshaped bias `Spec.row2d` of it;
  * the gathered rows and the two index arrays are named by the REFERENCE's own stages (`val_main_v10`, `val_main_v17`,
    `val_main_v18`): the two programs' host lines for them are the same operations on the same arguments, so the kernel's
    terms equal those by unfolding, for every float instance;
  * so the aggregated array is the scatter-add of `Spec.msg …` at the reference's indices, and the result `Spec.upd …` of
    it (`result_eq`).
-/
import proofs.«122508_j13073880449416_1_alg».proof.Proof.KernelRun
import proofs.«122508_j13073880449416_1_alg».proof.Proof.Region0
import proofs.«122508_j13073880449416_1_alg».proof.Proof.Region1
import proofs.«122508_j13073880449416_1_alg».proof.Proof.RefRead
import Idealize.ShloMosaic.Lib.StableHlo.Run
import Idealize.ShloMosaic.Lib.ValueLayout

noncomputable section

namespace Cert.KernelIdeal.Whole

open Cert.KernelIdeal Cert.KernelIdeal.Gen Idealize.ShloMosaic Idealize.ShloMosaic.TcCoe Idealize.SL.Sem Idealize.ShloMosaic.StableHlo
open Idealize.ShloMosaic.ValueIdx
open Idealize.ShloMosaic.Pipeline (Dat)

/-! ## Reading the host stretches, for any float instance -/

section AnyInstance

variable {F : FTy → Type} [FloatOps F]
variable (m : (ℓ : Loc nD τ sig) → Buf (Elt F) ℓ) (ρ : Dev nD → PrngReg)

/-- The gathered node rows, as the reference's stage of the same name computes them. -/
theorem V1_v10 (c : Dev nD) :
    V1 m ρ c main_v10 = Cert.ReferenceIdeal.ReadP.val_main_v10 (F := F) (m ((c.tc : Thread nD τ).loc main_arg0)) (m ((c.tc : Thread nD τ).loc main_arg1)) := by
  show StableHlo.after hostOps0 (W0 m ρ c) (Proc.devRef .tc main_v10) = _
  after_results
  rfl

theorem V1_arg2 (c : Dev nD) : V1 m ρ c main_arg2 = m ((c.tc : Thread nD τ).loc main_arg2) := by
  show StableHlo.after hostOps0 (W0 m ρ c) (Proc.devRef .tc main_arg2) = _
  after_results

theorem V1_v11 (c : Dev nD) : V1 m ρ c main_v11 = extractStridedSlice S128x128 ![0, 0] (m ((c.tc : Thread nD τ).loc main_arg3)) slices_S256x128_S128x128_0_0 := by
  show StableHlo.after hostOps0 (W0 m ρ c) (Proc.devRef .tc main_v11) = _
  after_results

theorem V1_v12 (c : Dev nD) : V1 m ρ c main_v12 = extractStridedSlice S128x128 ![128, 0] (m ((c.tc : Thread nD τ).loc main_arg3)) slices_S256x128_S128x128_128_0 := by
  show StableHlo.after hostOps0 (W0 m ρ c) (Proc.devRef .tc main_v12) = _
  after_results

theorem V1_v13 (c : Dev nD) : V1 m ρ c main_v13 = shapeCast S1x128 (m ((c.tc : Thread nD τ).loc main_arg4)) shapeCasts_S128_S1x128 := by
  show StableHlo.after hostOps0 (W0 m ρ c) (Proc.devRef .tc main_v13) = _
  after_results
  rfl

/-- The target-row indices, as the reference's stage of the same name computes them, stay through region 0. -/
theorem W2_v3 (c : Dev nD) :
    broadcastInDim S640000x1 ![0] bcast_S640000_S640000x1_0 (W2 m ρ c (Proc.devRef .tc main_v3))
      = Cert.ReferenceIdeal.ReadP.val_main_v18 (F := F) (m ((c.tc : Thread nD τ).loc main_arg1)) := by
  rw [W2_of_ne m ρ c main_v3 (by decide)]
  show broadcastInDim S640000x1 ![0] bcast_S640000_S640000x1_0 (StableHlo.after hostOps0 (W0 m ρ c) (Proc.devRef .tc main_v3)) = _
  after_results
  rfl

/-- The aggregated messages: the scatter-add, from zeros, of region 0's output at the reference's target-row indices. -/
theorem V3_v17 (c : Dev nD) :
    V3 m ρ c main_v17 = Host.scatterAdd scatter_S40000x128_S640000x1_S640000x128_1_0_0_1 (Cert.ReferenceIdeal.ReadP.val_main_v17 (F := F))
      (Cert.ReferenceIdeal.ReadP.val_main_v18 (F := F) (m ((c.tc : Thread nD τ).loc main_arg1))) ((dat0 (V1 m ρ) c).arrAt 5 cfg0.N) := by
  show StableHlo.after hostOps1 (W2 m ρ c) (Proc.devRef .tc main_v17) = _
  after_results
  rw [W2_v3 m ρ c, show W2 m ρ c (Proc.devRef .tc main_v14) = (dat0 (V1 m ρ) c).arrAt 5 cfg0.N from W2_arr m ρ c 5]
  rfl

theorem V3_arg0 (c : Dev nD) : V3 m ρ c main_arg0 = m ((c.tc : Thread nD τ).loc main_arg0) :=
  ((W4_arr m ρ c 0).trans (((dat1 (V3 m ρ) c).arrAt_in 0 rfl _).trans (A_eq1 (V3 m ρ) c 0))).symm.trans (W4_main_arg0 m ρ c)

theorem V3_arg7 (c : Dev nD) : V3 m ρ c main_arg7 = m ((c.tc : Thread nD τ).loc main_arg7) :=
  ((W4_arr m ρ c 5).trans (((dat1 (V3 m ρ) c).arrAt_in 5 rfl _).trans (A_eq1 (V3 m ρ) c 5))).symm.trans (W4_main_arg7 m ρ c)

theorem W1_arg5 (c : Dev nD) : W1 m ρ c (Proc.devRef .tc main_arg5) = m ((c.tc : Thread nD τ).loc main_arg5) := by
  show StableHlo.after hostOps0 (W0 m ρ c) (Proc.devRef .tc main_arg5) = _
  after_results
theorem W1_arg6 (c : Dev nD) : W1 m ρ c (Proc.devRef .tc main_arg6) = m ((c.tc : Thread nD τ).loc main_arg6) := by
  show StableHlo.after hostOps0 (W0 m ρ c) (Proc.devRef .tc main_arg6) = _
  after_results
theorem W1_arg8 (c : Dev nD) : W1 m ρ c (Proc.devRef .tc main_arg8) = m ((c.tc : Thread nD τ).loc main_arg8) := by
  show StableHlo.after hostOps0 (W0 m ρ c) (Proc.devRef .tc main_arg8) = _
  after_results

theorem V3_v18 (c : Dev nD) : V3 m ρ c main_v18 = extractStridedSlice S128x128 ![0, 0] (m ((c.tc : Thread nD τ).loc main_arg5)) slices_S256x128_S128x128_0_0 := by
  show StableHlo.after hostOps1 (W2 m ρ c) (Proc.devRef .tc main_v18) = _
  after_results
  rw [W2_of_ne m ρ c main_arg5 (by decide), W1_arg5]

theorem V3_v19 (c : Dev nD) : V3 m ρ c main_v19 = extractStridedSlice S128x128 ![128, 0] (m ((c.tc : Thread nD τ).loc main_arg5)) slices_S256x128_S128x128_128_0 := by
  show StableHlo.after hostOps1 (W2 m ρ c) (Proc.devRef .tc main_v19) = _
  after_results
  rw [W2_of_ne m ρ c main_arg5 (by decide), W1_arg5]

theorem V3_v20 (c : Dev nD) : V3 m ρ c main_v20 = shapeCast S1x128 (m ((c.tc : Thread nD τ).loc main_arg6)) shapeCasts_S128_S1x128 := by
  show StableHlo.after hostOps1 (W2 m ρ c) (Proc.devRef .tc main_v20) = _
  after_results
  rw [W2_of_ne m ρ c main_arg6 (by decide), W1_arg6]
  rfl

theorem V3_v21 (c : Dev nD) : V3 m ρ c main_v21 = shapeCast S1x128 (m ((c.tc : Thread nD τ).loc main_arg8)) shapeCasts_S128_S1x128 := by
  show StableHlo.after hostOps1 (W2 m ρ c) (Proc.devRef .tc main_v21) = _
  after_results
  rw [W2_of_ne m ρ c main_arg8 (by decide), W1_arg8]
  rfl

end AnyInstance

/-! ## At the ideal instance: the regions' outputs over the arguments -/

section AtIdeal

/-- The first 128 rows of a 256-row weight matrix, as the host slices them. -/
theorem slice_top (w : (⟨S256x128, .f32⟩ : BufTy).Contents (Elt Ideal)) :
    extractStridedSlice S128x128 ![0, 0] w slices_S256x128_S128x128_0_0 = Spec.top w := by
  funext i
  obtain ⟨p, q, rfl⟩ : ∃ (p : Fin 128) (q : Fin 128), i = ix2 p q := ⟨i 0, i 1, eq_ix2 i⟩
  exact slice2_axis0_apply 0 w slices_S256x128_S128x128_0_0 p q (Spec.lo p) (by show p.val = 0 + p.val; omega)

/-- The last 128 rows. -/
theorem slice_bot (w : (⟨S256x128, .f32⟩ : BufTy).Contents (Elt Ideal)) :
    extractStridedSlice S128x128 ![128, 0] w slices_S256x128_S128x128_128_0 = Spec.bot w := by
  funext i
  obtain ⟨p, q, rfl⟩ : ∃ (p : Fin 128) (q : Fin 128), i = ix2 p q := ⟨i 0, i 1, eq_ix2 i⟩
  exact slice2_axis0_apply 128 w slices_S256x128_S128x128_128_0 p q (Spec.hi p) rfl

/-- A bias vector reshaped to one row. -/
theorem reshape_row (b : (⟨S128, .f32⟩ : BufTy).Contents (Elt Ideal)) :
    shapeCast S1x128 b shapeCasts_S128_S1x128 = Spec.row2d b := by
  funext i
  obtain ⟨u, q, rfl⟩ : ∃ (u : Fin 1) (q : Fin 128), i = ix2 u q := ⟨i 0, i 1, eq_ix2 i⟩
  exact shapeCast_a_1a_apply b shapeCasts_S128_S1x128 u q

variable (m : (ℓ : Loc nD τ sig) → Buf (Elt Ideal) ℓ) (ρ : Dev nD → PrngReg)

/-- The messages over the arguments. -/
abbrev msgs (c : Dev nD) : Spec.Mat 640000 128 :=
  Spec.msg (Cert.ReferenceIdeal.ReadP.val_main_v10 (F := Ideal) (m ((c.tc : Thread nD τ).loc main_arg0)) (m ((c.tc : Thread nD τ).loc main_arg1))) (m ((c.tc : Thread nD τ).loc main_arg2))
    (Spec.top (m ((c.tc : Thread nD τ).loc main_arg3))) (Spec.bot (m ((c.tc : Thread nD τ).loc main_arg3))) (Spec.row2d (m ((c.tc : Thread nD τ).loc main_arg4)))

/-- Region 0's output array after its run is the messages. -/
theorem region0_out (c : Dev nD) : (dat0 (V1 m ρ) c).arrAt 5 cfg0.N = msgs m c := by
  refine (Region0.final0 (V1 m ρ) c).trans ?_
  show Spec.msg (V1 m ρ c main_v10) (V1 m ρ c main_arg2) (V1 m ρ c main_v11) (V1 m ρ c main_v12) (V1 m ρ c main_v13) = _
  rw [V1_v10 m ρ c, V1_arg2 m ρ c, V1_v11 m ρ c, V1_v12 m ρ c, V1_v13 m ρ c, slice_top, slice_bot, reshape_row]

/-- The aggregated messages over the arguments. -/
abbrev aggregated (c : Dev nD) : FVec Ideal S40000x128 .f32 :=
  Host.scatterAdd (F := Ideal) scatter_S40000x128_S640000x1_S640000x128_1_0_0_1 (Cert.ReferenceIdeal.ReadP.val_main_v17 (F := Ideal))
    (Cert.ReferenceIdeal.ReadP.val_main_v18 (F := Ideal) (m ((c.tc : Thread nD τ).loc main_arg1))) (msgs m c)

/-- The kernel's result over the arguments. -/
abbrev result (c : Dev nD) : Buf (Elt Ideal) ((c.tc : Thread nD τ).loc main_v22) :=
  Spec.upd (m ((c.tc : Thread nD τ).loc main_arg0)) (aggregated m c) (Spec.top (m ((c.tc : Thread nD τ).loc main_arg5))) (Spec.bot (m ((c.tc : Thread nD τ).loc main_arg5))) (Spec.row2d (m ((c.tc : Thread nD τ).loc main_arg6))) (m ((c.tc : Thread nD τ).loc main_arg7)) (Spec.row2d (m ((c.tc : Thread nD τ).loc main_arg8)))

/-- Region 1's output array after its run, the last boundary's contents at the result buffer, is `result`. -/
theorem result_eq (c : Dev nD) : W4 m ρ c (Proc.devRef .tc main_v22) = result m c := by
  refine (W4_arr m ρ c 7).trans ?_
  refine (Region1.final1 (V3 m ρ) c).trans ?_
  show Spec.upd (V3 m ρ c main_arg0) (V3 m ρ c main_v17) (V3 m ρ c main_v18) (V3 m ρ c main_v19) (V3 m ρ c main_v20) (V3 m ρ c main_arg7) (V3 m ρ c main_v21) = _
  rw [V3_arg0 m ρ c, V3_v17 m ρ c, V3_v18 m ρ c, V3_v19 m ρ c, V3_v20 m ρ c, V3_arg7 m ρ c, V3_v21 m ρ c, region0_out m ρ c,
    slice_top, slice_bot, reshape_row, reshape_row]

/-- The idealized kernel's run with its result named: every weakly fair execution terminates, nothing faulting, the
    result array at `result` and the nine arguments as launched. -/
theorem run : θ_run defs (onTc (τ := τ) (main (F := Ideal))) ⟨m, fun _ => 0, ρ⟩ (fun r => ∀ c : Dev nD,
      r.2.mem ((c.tc : Thread nD τ).loc main_v22) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1.trans (result_eq m ρ c), (h c).2⟩) (Cert.KernelIdeal.Run.run (F := Ideal) m ρ)

end AtIdeal

end Cert.KernelIdeal.Whole

end
-- ==== Proof.RefValue.lean ====
/-
  The reference, stage by stage, is the layer's arithmetic (Spec.lean), at the ideal instance.

  * Its message pre-activation `concat [nodes[src], edge] · mw1 + mb1` at `(e, j)` is the ONE sum over the 256 joined
    columns; the first 128 terms read the gathered node row against rows 0…127 of `mw1`, the last 128 the edge row against
    rows 128…255: `lin2 nodes[src][e] edge[e] (top mw1) (bot mw1) mb1 j` (`pre_msg`, by `Spec.sum_joined`).
  * The host program spells `silu p` as `p · (1 / (1 + e^{-p}))`: at the ideal instance that IS `p · σ(p)` (`silu_msg`,
    `silu_upd`).
  * So the reference's messages are `Spec.msg …` (`msg_eq`), and, the same way with the aggregated messages beside the
    node features, its result is `Spec.upd nodes aggregated (top uw1) (bot uw1) ub1 uw2 ub2` (`upd_eq`).
  The gather and the scatter-add are not opened: both programs apply the same ones to the same indices.
-/
import proofs.«122508_j13073880449416_1_alg».proof.Proof.RefRead
import proofs.«122508_j13073880449416_1_alg».proof.Proof.Spec
import Idealize.ShloMosaic.Lib.Pipeline.Value
import Idealize.ShloMosaic.Lib.ValueIdx

noncomputable section

open scoped BigOperators

namespace Cert.ReferenceIdeal.RefValue

open Cert.ReferenceIdeal Cert.ReferenceIdeal.Gen Cert.ReferenceIdeal.ReadP Idealize.ShloMosaic Idealize.ShloMosaic.ValueIdx

variable (x0 : (⟨S40000x128, .f32⟩ : BufTy).Contents (Elt Ideal)) (x1 : (⟨S2x640000, .i32⟩ : BufTy).Contents (Elt Ideal))
  (x2 : (⟨S640000x128, .f32⟩ : BufTy).Contents (Elt Ideal)) (x3 : (⟨S256x128, .f32⟩ : BufTy).Contents (Elt Ideal))
  (x4 : (⟨S128, .f32⟩ : BufTy).Contents (Elt Ideal)) (x5 : (⟨S256x128, .f32⟩ : BufTy).Contents (Elt Ideal))
  (x6 : (⟨S128, .f32⟩ : BufTy).Contents (Elt Ideal)) (x7 : (⟨S128x128, .f32⟩ : BufTy).Contents (Elt Ideal))
  (x8 : (⟨S128, .f32⟩ : BufTy).Contents (Elt Ideal))

/-! ## The messages -/

/-- The message layer before its activation, at `(e, j)`. -/
theorem pre_msg (e : Fin 640000) (j : Fin 128) :
    val_main_v15 (F := Ideal) x0 x1 x2 x3 x4 (ix2 e j)
      = Spec.lin2 (Spec.rowOf (val_main_v10 (F := Ideal) x0 x1) e) (Spec.rowOf x2 e) (Spec.top x3) (Spec.bot x3) (Spec.row2d x4) j := by
  rw [val_main_v15_apply, val_main_v12_apply, val_main_v14_apply, val_main_v13_apply]
  unfold Spec.lin2
  refine congrArg₂ (fun (a b : EReal) => a + b) ?_ ?_
  · refine Spec.sum_joined (fun k => val_main_v10 (F := Ideal) x0 x1 (ix2 e k)) (fun k => x2 (ix2 e k))
      (fun k => Spec.top x3 (ix2 k j)) (fun k => Spec.bot x3 (ix2 k j)) _ _ ?_ ?_ ?_ ?_
    · intro k
      unfold val_main_v11
      exact concatenate_pair_apply_left (t := S640000x256) (s₁ := S640000x128) (s₂ := S640000x128) 1 _ _ _ (lidx_main_v12 (ix2 e j) (Spec.lo k)) rfl (ix2 e k) (fun b => by match b with | ⟨0, _⟩ => rfl | ⟨1, _⟩ => rfl)
    · intro k
      unfold val_main_v11
      exact concatenate_pair_apply_right (t := S640000x256) (s₁ := S640000x128) (s₂ := S640000x128) 1 _ _ _ (lidx_main_v12 (ix2 e j) (Spec.hi k)) rfl rfl (ix2 e k)
        (fun b hb => by match b with | ⟨0, _⟩ => rfl | ⟨1, _⟩ => exact absurd rfl hb)
        (by show k.val + 128 = 128 + k.val; omega)
    · intro k
      exact congrArg x3 (funext fun a => by match a with | ⟨0, _⟩ => rfl | ⟨1, _⟩ => rfl)
    · intro k
      exact congrArg x3 (funext fun a => by match a with | ⟨0, _⟩ => rfl | ⟨1, _⟩ => rfl)
  · exact congrArg x4 (funext fun a => by match a with | ⟨0, _⟩ => rfl)

/-- The host's spelling of the activation is `silu`. -/
theorem silu_msg (i : S640000x128.Idx) :
    val_main_v16 (F := Ideal) x0 x1 x2 x3 x4 i = Spec.silu (val_main_v15 (F := Ideal) x0 x1 x2 x3 x4 i) := by
  rw [val_main_v16_apply, val_main_call0_v5_apply, val_main_call0_v4_apply, val_main_call0_cst_0_apply, val_main_call0_v3_apply,
    val_main_call0_v2_apply, val_main_call0_cst_apply, val_main_call0_v1_apply, val_main_call0_v0_apply]
  show _ * Ideal.div (Ideal.ofBits .f32 0x3F800000#32) (Ideal.ofBits .f32 0x3F800000#32 + Ideal.exp (- _)) = _
  rw [Spec.one_f32]
  rfl

/-- The reference's messages are `Spec.msg` of the gathered node features, the edge features, the two halves of the
    message weights and the message bias. -/
theorem msg_eq :
    val_main_v16 (F := Ideal) x0 x1 x2 x3 x4
      = Spec.msg (val_main_v10 (F := Ideal) x0 x1) x2 (Spec.top x3) (Spec.bot x3) (Spec.row2d x4) := by
  funext i
  obtain ⟨e, j, rfl⟩ : ∃ (e : Fin 640000) (j : Fin 128), i = ix2 e j := ⟨i 0, i 1, eq_ix2 i⟩
  rw [silu_msg, pre_msg]
  rfl

/-! ## The update -/

/-- The update's first layer before its activation, at `(n, k)`. -/
theorem pre_upd (n : Fin 40000) (k : Fin 128) :
    val_main_v24 (F := Ideal) x0 x1 x2 x3 x4 x5 x6 (ix2 n k)
      = Spec.lin2 (Spec.rowOf x0 n) (Spec.rowOf (val_main_v19 (F := Ideal) x0 x1 x2 x3 x4) n) (Spec.top x5) (Spec.bot x5) (Spec.row2d x6) k := by
  rw [val_main_v24_apply, val_main_v21_apply, val_main_v23_apply, val_main_v22_apply]
  unfold Spec.lin2
  refine congrArg₂ (fun (a b : EReal) => a + b) ?_ ?_
  · refine Spec.sum_joined (fun q => x0 (ix2 n q)) (fun q => val_main_v19 (F := Ideal) x0 x1 x2 x3 x4 (ix2 n q))
      (fun q => Spec.top x5 (ix2 q k)) (fun q => Spec.bot x5 (ix2 q k)) _ _ ?_ ?_ ?_ ?_
    · intro q
      unfold val_main_v20
      exact concatenate_pair_apply_left (t := S40000x256) (s₁ := S40000x128) (s₂ := S40000x128) 1 _ _ _ (lidx_main_v21 (ix2 n k) (Spec.lo q)) rfl (ix2 n q) (fun b => by match b with | ⟨0, _⟩ => rfl | ⟨1, _⟩ => rfl)
    · intro q
      unfold val_main_v20
      exact concatenate_pair_apply_right (t := S40000x256) (s₁ := S40000x128) (s₂ := S40000x128) 1 _ _ _ (lidx_main_v21 (ix2 n k) (Spec.hi q)) rfl rfl (ix2 n q)
        (fun b hb => by match b with | ⟨0, _⟩ => rfl | ⟨1, _⟩ => exact absurd rfl hb)
        (by show q.val + 128 = 128 + q.val; omega)
    · intro q
      exact congrArg x5 (funext fun a => by match a with | ⟨0, _⟩ => rfl | ⟨1, _⟩ => rfl)
    · intro q
      exact congrArg x5 (funext fun a => by match a with | ⟨0, _⟩ => rfl | ⟨1, _⟩ => rfl)
  · exact congrArg x6 (funext fun a => by match a with | ⟨0, _⟩ => rfl)

theorem silu_upd (i : S40000x128.Idx) :
    val_main_v25 (F := Ideal) x0 x1 x2 x3 x4 x5 x6 i = Spec.silu (val_main_v24 (F := Ideal) x0 x1 x2 x3 x4 x5 x6 i) := by
  rw [val_main_v25_apply, val_main_call1_v5_apply, val_main_call1_v4_apply, val_main_call1_cst_0_apply, val_main_call1_v3_apply,
    val_main_call1_v2_apply, val_main_call1_cst_apply, val_main_call1_v1_apply, val_main_call1_v0_apply]
  show _ * Ideal.div (Ideal.ofBits .f32 0x3F800000#32) (Ideal.ofBits .f32 0x3F800000#32 + Ideal.exp (- _)) = _
  rw [Spec.one_f32]
  rfl

/-- The reference's result is `Spec.upd` of the node features, its aggregated messages, the two halves of the first update
    weights, the two biases and the second update weights. -/
theorem upd_eq :
    val_main_v30 (F := Ideal) x0 x1 x2 x3 x4 x5 x6 x7 x8
      = Spec.upd x0 (val_main_v19 (F := Ideal) x0 x1 x2 x3 x4) (Spec.top x5) (Spec.bot x5) (Spec.row2d x6) x7 (Spec.row2d x8) := by
  funext i
  obtain ⟨n, j, rfl⟩ : ∃ (n : Fin 40000) (j : Fin 128), i = ix2 n j := ⟨i 0, i 1, eq_ix2 i⟩
  rw [val_main_v30_apply, val_main_v29_apply, val_main_v26_apply, val_main_v28_apply, val_main_v27_apply]
  unfold Spec.upd
  refine congrArg₂ (fun (a b : EReal) => a + b) rfl (congrArg₂ (fun (a b : EReal) => a + b) (Finset.sum_congr rfl fun k _ => ?_) ?_)
  · have e1 : lidx_main_v26 (ix2 n j) k = ix2 n k := funext fun a => by match a with | ⟨0, _⟩ => rfl | ⟨1, _⟩ => rfl
    have e2 : ridx_main_v26 (ix2 n j) k = ix2 k j := funext fun a => by match a with | ⟨0, _⟩ => rfl | ⟨1, _⟩ => rfl
    rw [e1, e2, silu_upd, pre_upd]
  · exact congrArg x8 (funext fun a => by match a with | ⟨0, _⟩ => rfl)

end Cert.ReferenceIdeal.RefValue

end
-- ==== Proof.lean ====
/-
  `Cert.Claim` for one message-passing layer of a graph network: the Pallas kernel against its jnp reference, over the
  extended reals.

  Both programs gather a node-feature row per edge, run a first MLP layer on (node row, edge row) with `silu`, add each
  edge's message onto its target node's row, and update every node: `nodes + (silu (concat [nodes, aggregated] · uw1 + ub1)
  · uw2 + ub2)`. The reference concatenates the two 128-wide inputs of each first layer and multiplies by the 256-row weight
  matrix; the kernel multiplies each input by its half of the matrix (two pallas_calls, one over 100 blocks of 6400 edges,
  one over 8 blocks of 5000 nodes) and adds the products. At the ideal instance the two are one function because a sum over
  256 terms is the sum of its first and its last 128 (Spec.lean `sum_joined`); the roundings to bf16 on the way into the
  kernel's matrix products are the identity there, and `tpu.logistic` and the host program's expansion of the sigmoid are one
  function. No entry is asked to be finite: only `+` being a commutative monoid is used.

  * frames: the two kernels' by the generated frame certificates; the reference's by its run with the result dropped;
  * preserves: the ideal pass rewrote nothing;
  * algebraic: the kernel's result array is `Spec.upd …` of the arguments (KernelValue.lean, over Region0.lean and
    Region1.lean), the reference's is the same term (RefValue.lean), the gather and the scatter-add shared.
-/
import proofs.«122508_j13073880449416_1_alg».proof.Defs
import proofs.«122508_j13073880449416_1_alg».proof.Proof.Gen.Kernel
import proofs.«122508_j13073880449416_1_alg».proof.Proof.Gen.Kernel.Skeleton
import proofs.«122508_j13073880449416_1_alg».proof.Proof.Gen.Kernel.Launch
import proofs.«122508_j13073880449416_1_alg».proof.Proof.Gen.Kernel.Points
import proofs.«122508_j13073880449416_1_alg».proof.Proof.Gen.Kernel.Frame
import proofs.«122508_j13073880449416_1_alg».proof.Proof.Gen.KernelIdeal
import proofs.«122508_j13073880449416_1_alg».proof.Proof.Gen.KernelIdeal.Skeleton
import proofs.«122508_j13073880449416_1_alg».proof.Proof.Gen.KernelIdeal.Launch
import proofs.«122508_j13073880449416_1_alg».proof.Proof.Gen.KernelIdeal.Points
import proofs.«122508_j13073880449416_1_alg».proof.Proof.Gen.KernelIdeal.Frame
import proofs.«122508_j13073880449416_1_alg».proof.Proof.Gen.ReferenceIdeal
import proofs.«122508_j13073880449416_1_alg».proof.Proof.Gen.Pre_finite_inputs
import proofs.«122508_j13073880449416_1_alg».proof.Proof.KernelValue
import proofs.«122508_j13073880449416_1_alg».proof.Proof.RefRun
import proofs.«122508_j13073880449416_1_alg».proof.Proof.RefRead
import proofs.«122508_j13073880449416_1_alg».proof.Proof.RefValue
import Idealize.ShloMosaic.Adequacy
import Idealize.ShloMosaic.Init

noncomputable section

namespace Cert.Proof

open Idealize.ShloMosaic Idealize.SL.Sem

/-- The two programs' scatter-adds have the same dimension numbers. -/
theorem scatter_dims_eq :
    Cert.KernelIdeal.scatter_S40000x128_S640000x1_S640000x128_1_0_0_1 = Cert.ReferenceIdeal.scatter_S40000x128_S640000x1_S640000x128_1_0_0_1 := rfl

theorem frame_kernel : Cert.frame_Kernel (hKernel := Cert.Kernel.Gen.facts) (hPre_finite_inputs := Cert.Pre_finite_inputs.Gen.facts) :=
  fun m ρ _ => Cert.Kernel.Gen.frame m ρ

theorem frame_kernel_ideal : Cert.frame_KernelIdeal (hKernelIdeal := Cert.KernelIdeal.Gen.facts) (hPre_finite_inputs := Cert.Pre_finite_inputs.Gen.facts) :=
  fun m ρ _ => Cert.KernelIdeal.Gen.frame m ρ

/-- The reference's frame: its run with the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

/-- Both runs end with the result array at `Spec.upd` of the node features, the scatter-add of `Spec.msg …`, the halves of the
    update weights and the biases: the kernel's by its two regions' blocks, the reference's by its stages read entry by entry. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6, h7, h8⟩ := hagree c
  rw [Cert.ReferenceIdeal.ReadP.val_main_v30_eq, h0, h1, h2, h3, h4, h5, h6, h7, h8, Cert.ReferenceIdeal.RefValue.upd_eq]
  unfold Cert.ReferenceIdeal.ReadP.val_main_v19
  rw [Cert.ReferenceIdeal.RefValue.msg_eq, ← scatter_dims_eq]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
